-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x32x128 : Shape := ⟨3, ![10000, 32, 128]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x128 : S_.BroadcastsInDim S10000x32x128 (![] : Fin 0 → Fin S10000x32x128.rank)
  reducesTo_S10000x32x128_S_d0_1_2 : S10000x32x128.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S10000x128 .f32) (main_arg1 : FVec F S10000x32x128 .f32) (main_arg2 : FVec F S10000x32x128 .f32) (main_arg3 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x128 .f32 := Host.absf main_arg1
  let main_cst_0 : FVec F S_ .f32 := constant S_ .f32 0x7F800000#32
  let main_v5 : FVec F S10000x32x128 .f32 := broadcastInDim S10000x32x128 ![] bcast_S_S10000x32x128 main_cst_0
  let main_v6 : IVec S10000x32x128 1 := cmpf .olt main_v4 main_v5
  let main_c_1 : IVec S_ 1 := constantI S_ 1 1#1
  let main_v7 : IVec S_ 1 := (fun x v => Host.reduce IntOp.andi x v reducesTo_S10000x32x128_S_d0_1_2 h_S_) main_v6 main_c_1
  let main_v8 : IVec S_ 1 := andi main_v3 main_v7
  let main_v9 : FVec F S10000x32x128 .f32 := Host.absf main_arg2
  let main_cst_2 : FVec F S_ .f32 := constant S_ .f32 0x7F800000#32
  let main_v10 : FVec F S10000x32x128 .f32 := broadcastInDim S10000x32x128 ![] bcast_S_S10000x32x128 main_cst_2
  let main_v11 : IVec S10000x32x128 1 := cmpf .olt main_v9 main_v10
  let main_c_3 : IVec S_ 1 := constantI S_ 1 1#1
  let main_v12 : IVec S_ 1 := (fun x v => Host.reduce IntOp.andi x v reducesTo_S10000x32x128_S_d0_1_2 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S10000x128 : Shape := ⟨2, ![10000, 128]⟩
abbrev S10000x32x128 : Shape := ⟨3, ![10000, 32, 128]⟩
abbrev S1x128 : Shape := ⟨2, ![1, 128]⟩
abbrev S128x1 : Shape := ⟨2, ![128, 1]⟩
abbrev S128x128 : Shape := ⟨2, ![128, 128]⟩
abbrev S624x128 : Shape := ⟨2, ![624, 128]⟩
abbrev S624x32x128 : Shape := ⟨3, ![624, 32, 128]⟩
abbrev S624x1x128 : Shape := ⟨3, ![624, 1, 128]⟩
abbrev S19968x128 : Shape := ⟨2, ![19968, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S10000x32x128, .f32⟩
  | .hbm, ⟨3, _⟩ => ⟨S1x128, .f32⟩
  | .hbm, ⟨4, _⟩ => ⟨S128x1, .f32⟩
  | .hbm, ⟨5, _⟩ => ⟨S128x128, .f32⟩
  | .hbm, ⟨6, _⟩ => ⟨S10000x128, .f32⟩
  | .local _ .vmem, ⟨0, _⟩ => ⟨S624x128, .f32⟩
  | .local _ .vmem, ⟨1, _⟩ => ⟨S624x128, .f32⟩
  | .local _ .vmem, ⟨2, _⟩ => ⟨S624x32x128, .f32⟩
  | .local _ .vmem, ⟨3, _⟩ => ⟨S624x32x128, .f32⟩
  | .local _ .vmem, ⟨4, _⟩ => ⟨S624x32x128, .f32⟩
  | .local _ .vmem, ⟨5, _⟩ => ⟨S624x32x128, .f32⟩
  | .local _ .vmem, ⟨6, _⟩ => ⟨S128x128, .f32⟩
  | .local _ .vmem, ⟨7, _⟩ => ⟨S624x128, .f32⟩
  | .local _ .vmem, ⟨8, _⟩ => ⟨S624x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S624x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S624x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S624x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S624x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x128_S128x1 : S1x128.ShapeCasts S128x1
  bcast_S128x1_S128x128_0_1 : S128x1.BroadcastsInDim S128x128 (![0, 1] : Fin 2 → Fin S128x128.rank)
  inb_S624x128_S624x128_0_0 : ∀ a, (![0, 0] : Fin 2 → Nat) a + S624x128.size a ≤ S624x128.size a
  h_S624x128 : 0 < S624x128.numel
  inb_S624x32x128_S624x32x128_0_0_0 : ∀ a, (![0, 0, 0] : Fin 3 → Nat) a + S624x32x128.size a ≤ S624x32x128.size a
  h_S624x32x128 : 0 < S624x32x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S624x128_S624x1x128 : S624x128.ShapeCasts S624x1x128
  broadcasts_S624x1x128_S624x32x128 : S624x1x128.Broadcasts S624x32x128
  shapeCasts_S624x32x128_S19968x128 : S624x32x128.ShapeCasts S19968x128
  shapeCasts_S19968x128_S624x32x128 : S19968x128.ShapeCasts S624x32x128
  reduces_S624x32x128_S624x128 : S624x32x128.Reduces [1] S624x128
  dot_S19968x128_S128x128_S19968x128_1_0_0_1_n_n_wf : DotDims.WF S19968x128 S128x128 S19968x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S624x128.size a < S10000x128.size a
  hwx0_0 : ∀ i : grid0.Coords, EltTy.bits .f32 = 32 ∨ (Rect.unit (s := S10000x128) (fun a => cc0_transform_0 i a * S624x128.size a) (fun a => (Pipeline.Clip.of (cc0_transform_0 i a) (S624x128.size a) (S10000x128.size a)).extent (S624x128.size a)) fun a => Pipeline.Clip.inb (Pipeline.Clip.ok_of (hstart0_0 i a))).WholeWords (EltTy.packing .f32)
  hwxs0_0 : ∀ i : grid0.Coords, EltTy.bits .f32 = 32 ∨ (Rect.unit (s := S624x128) (fun _ => 0) (fun a => (Pipeline.Clip.of (cc0_transform_0 i a) (S624x128.size a) (S10000x128.size a)).extent (S624x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S624x32x128.size a < S10000x32x128.size a
  hwx0_1 : ∀ i : grid0.Coords, EltTy.bits .f32 = 32 ∨ (Rect.unit (s := S10000x32x128) (fun a => cc0_transform_1 i a * S624x32x128.size a) (fun a => (Pipeline.Clip.of (cc0_transform_1 i a) (S624x32x128.size a) (S10000x32x128.size a)).extent (S624x32x128.size a)) fun a => Pipeline.Clip.inb (Pipeline.Clip.ok_of (hstart0_1 i a))).WholeWords (EltTy.packing .f32)
  hwxs0_1 : ∀ i : grid0.Coords, EltTy.bits .f32 = 32 ∨ (Rect.unit (s := S624x32x128) (fun _ => 0) (fun a => (Pipeline.Clip.of (cc0_transform_1 i a) (S624x32x128.size a) (S10000x32x128.size a)).extent (S624x32x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S624x32x128.size a < S10000x32x128.size a
  hwx0_2 : ∀ i : grid0.Coords, EltTy.bits .f32 = 32 ∨ (Rect.unit (s := S10000x32x128) (fun a => cc0_transform_2 i a * S624x32x128.size a) (fun a => (Pipeline.Clip.of (cc0_transform_2 i a) (S624x32x128.size a) (S10000x32x128.size a)).extent (S624x32x128.size a)) fun a => Pipeline.Clip.inb (Pipeline.Clip.ok_of (hstart0_2 i a))).WholeWords (EltTy.packing .f32)
  hwxs0_2 : ∀ i : grid0.Coords, EltTy.bits .f32 = 32 ∨ (Rect.unit (s := S624x32x128) (fun _ => 0) (fun a => (Pipeline.Clip.of (cc0_transform_2 i a) (S624x32x128.size a) (S10000x32x128.size a)).extent (S624x32x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S624x128.size a < S10000x128.size a
  hwx0_4 : ∀ i : grid0.Coords, EltTy.bits .f32 = 32 ∨ (Rect.unit (s := S10000x128) (fun a => cc0_transform_4 i a * S624x128.size a) (fun a => (Pipeline.Clip.of (cc0_transform_4 i a) (S624x128.size a) (S10000x128.size a)).extent (S624x128.size a)) fun a => Pipeline.Clip.inb (Pipeline.Clip.ok_of (hstart0_4 i a))).WholeWords (EltTy.packing .f32)
  hwxs0_4 : ∀ i : grid0.Coords, EltTy.bits .f32 = 32 ∨ (Rect.unit (s := S624x128) (fun _ => 0) (fun a => (Pipeline.Clip.of (cc0_transform_4 i a) (S624x128.size a) (S10000x128.size a)).extent (S624x128.size a)) fun a => (Nat.zero_add _).trans_le (Pipeline.Clip.extent_le (Pipeline.Clip.ok_of (hstart0_4 i a)))).WholeWords (EltTy.packing .f32)

variable [Facts₀]

def dot_S19968x128_S128x128_S19968x128_1_0_0_1_n_n : DotDims S19968x128 S128x128 S19968x128 where
  lhsContracting := [1]
  rhsContracting := [0]
  lhsNonContracting := [0]
  rhsNonContracting := [1]
  lhsBatch := []
  rhsBatch := []
  wf := dot_S19968x128_S128x128_S19968x128_1_0_0_1_n_n_wf

abbrev win0_0 : Pipeline.Window sig grid0 :=
  Pipeline.Window.ofSpecClip (Memref.whole main_arg0) S624x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S624x32x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S624x32x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S624x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x32x128 : Shape := ⟨3, ![10000, 32, 128]⟩
abbrev S1x128 : Shape := ⟨2, ![1, 128]⟩
abbrev S10000x1x128 : Shape := ⟨3, ![10000, 1, 128]⟩
abbrev S10000x32x1 : Shape := ⟨3, ![10000, 32, 1]⟩
abbrev S_ : Shape := ⟨0, ![]⟩
abbrev S10000x1 : Shape := ⟨2, ![10000, 1]⟩
abbrev S10000x1x1 : Shape := ⟨3, ![10000, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S10000x32x128, .f32⟩
  | .hbm, ⟨3, _⟩ => ⟨S1x128, .f32⟩
  | .hbm, ⟨4, _⟩ => ⟨S10000x1x128, .f32⟩
  | .hbm, ⟨5, _⟩ => ⟨S10000x32x128, .f32⟩
  | .hbm, ⟨6, _⟩ => ⟨S10000x32x128, .f32⟩
  | .hbm, ⟨7, _⟩ => ⟨S10000x32x128, .f32⟩
  | .hbm, ⟨8, _⟩ => ⟨S10000x32x1, .f32⟩
  | .hbm, ⟨9, _⟩ => ⟨S_, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x1x1, .f32⟩
  | .hbm, ⟨15, _⟩ => ⟨S10000x32x1, .f32⟩
  | .hbm, ⟨16, _⟩ => ⟨S10000x32x1, .f32⟩
  | .hbm, ⟨17, _⟩ => ⟨S10000x32x1, .f32⟩
  | .hbm, ⟨18, _⟩ => ⟨S_, .f32⟩
  | .hbm, ⟨19, _⟩ => ⟨S10000x1, .f32⟩
  | .hbm, ⟨20, _⟩ => ⟨S10000x1x1, .f32⟩
  | .hbm, ⟨21, _⟩ => ⟨S10000x32x1, .f32⟩
  | .hbm, ⟨22, _⟩ => ⟨S10000x32x1, .f32⟩
  | .hbm, ⟨23, _⟩ => ⟨S10000x32x128, .f32⟩
  | .hbm, ⟨24, _⟩ => ⟨S10000x32x128, .f32⟩
  | .hbm, ⟨25, _⟩ => ⟨S_, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S10000x128_S10000x1x128_0_2 : S10000x128.BroadcastsInDim S10000x1x128 (![0, 2] : Fin 2 → Fin S10000x1x128.rank)
  bcast_S10000x1x128_S10000x32x128_0_1_2 : S10000x1x128.BroadcastsInDim S10000x32x128 (![0, 1, 2] : Fin 3 → Fin S10000x32x128.rank)
  reducesTo_S10000x32x1_S10000x1_d1 : S10000x32x1.ReducesTo [1] S10000x1
  h_S_ : 0 < S_.numel
  bcast_S_S10000x1 : S_.BroadcastsInDim S10000x1 (![] : Fin 0 → Fin S10000x1.rank)
  bcast_S10000x1_S10000x1x1_0_2 : S10000x1.BroadcastsInDim S10000x1x1 (![0, 2] : Fin 2 → Fin S10000x1x1.rank)
  bcast_S10000x1x1_S10000x32x1_0_1_2 : S10000x1x1.BroadcastsInDim S10000x32x1 (![0, 1, 2] : Fin 3 → Fin S10000x32x1.rank)
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  dot_S10000x32x128_S1x128_S10000x32x1_2_1_01_0_n_n_wf : DotDims.WF S10000x32x128 S1x128 S10000x32x1 [2] [1] [0, 1] [0] [] []

variable [Facts₀]

def dot_S10000x32x128_S1x128_S10000x32x1_2_1_01_0_n_n : DotDims S10000x32x128 S1x128 S10000x32x1 where
  lhsContracting := [2]
  rhsContracting := [1]
  lhsNonContracting := [0, 1]
  rhsNonContracting := [0]
  lhsBatch := []
  rhsBatch := []
  wf := dot_S10000x32x128_S1x128_S10000x32x1_2_1_01_0_n_n_wf

class Facts : Prop extends Facts₀ where

variable [Facts]
-- ==== Proof.Spec.lean ====
/-
  The mathematics both programs compute, stated once over the argument arrays (extended reals, index by index).

  For node `n` and neighbour `k` the attention score is
      score n k = Σ_d tanh (a1[n,d] + a2[n,k,d]) · W[0,d],
  and the result at `(n, q)` is the mean of the neighbours' features weighted by `exp (score n k)`:
      attn (n, q) = (Σ_k exp (score n k) · ft[n,k,q]) / (Σ_k exp (score n k)).
  The kernel computes exactly this quotient (the normalisation deferred to one division); the reference
  normalises first (a softmax with the row maximum subtracted) and sums afterwards. Over finite inputs the two
  are the same real number: `softmax_weighted_sum` below.
-/
import Idealize.ShloMosaic.PureOps.Ideal
import Idealize.ShloMosaic.PureOps.Ideal.Laws
import Idealize.ShloMosaic.Lib.ValueIdx

noncomputable section

namespace Cert.AttnReduce

open Idealize.ShloMosaic Idealize.ShloMosaic.ValueIdx

/-- The shapes of the four arguments and of the result. -/
abbrev SNode : Shape := ⟨2, ![10000, 128]⟩
abbrev SNbr : Shape := ⟨3, ![10000, 32, 128]⟩
abbrev SW : Shape := ⟨2, ![1, 128]⟩

/-- An array all of whose entries are real numbers (neither infinity). -/
def IsReal {s : Shape} (x : s.Idx → EReal) : Prop := ∀ i, ∃ r : ℝ, x i = (r : EReal)

/-- The attention score of neighbour `k` of node `n`. -/
def score (a1 : SNode.Idx → EReal) (a2 : SNbr.Idx → EReal) (W : SW.Idx → EReal) (n : Fin 10000) (k : Fin 32) : EReal :=
  ∑ d : Fin 128, Ideal.tanh (a1 (ix2 n d) + a2 (ix3 n k d)) * W (ix2 (0 : Fin 1) d)

/-- The features' mean weighted by `exp score`, one division per entry. -/
def attn (a1 : SNode.Idx → EReal) (a2 ft : SNbr.Idx → EReal) (W : SW.Idx → EReal) : SNode.Idx → EReal := fun i =>
  Ideal.div (∑ k : Fin 32, Ideal.exp (score a1 a2 W (i 0) k) * ft (ix3 (i 0) k (i 1)))
    (∑ k : Fin 32, Ideal.exp (score a1 a2 W (i 0) k))

end Cert.AttnReduce

end
-- ==== Proof.Finite.lean ====
/-
  From the precondition to the arguments' entries being real numbers.

  The precondition is the conjunction, over the four float arrays, of "every entry x has |x| < +∞", each
  conjunct an and-reduction over all axes of the entrywise comparison of |x| with the broadcast constant
  whose bit pattern is +∞. Over the extended reals |x| = max x (-x), which is +∞ exactly at x = ±∞; so
  |x| < +∞ says that x is neither infinity, that is, x is a real number.
-/
import proofs.«157489_g1451698946386_cont_week2b_1105_6_alg».proof.Proof.Gen.Pre_finite_inputs
import proofs.«157489_g1451698946386_cont_week2b_1105_6_alg».proof.Proof.Spec
import Idealize.ShloMosaic.Lib.ReduceAll
import Idealize.ShloMosaic.Lib.Affine
import Idealize.ShloMosaic.Lib.ValueIdx
import Idealize.ShloMosaic.PureOps.Ideal
import Mathlib.Data.EReal.Basic

noncomputable section

namespace Cert.Pre_finite_inputs.Decode

open Idealize.ShloMosaic Cert.Pre_finite_inputs Cert.AttnReduce

/-- The f32 pattern `0x7F800000` (sign 0, exponent all ones, fraction 0) denotes +∞. -/
theorem ofBits_inf : Ideal.ofBits .f32 0x7F800000#32 = (⊤ : EReal) := by
  simp [Ideal.ofBits, Ideal.ieee]

/-- An extended real whose absolute value `max x (-x)` is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A boolean read as a one-bit word is 1 exactly when it is true. -/
theorem ofBool_eq_one (b : Bool) : BitVec.ofBool b = 1#1 ↔ b = true := by cases b <;> decide

/-- The rank-0 shape has exactly one index. -/
instance : Subsingleton S_.Idx := ⟨fun a b => funext fun d => d.elim0⟩

/-- One array's conjunct: if the and-reduction over all axes of `|x| < +∞` (entrywise, against the
    broadcast +∞ constant) is 1, every entry of `x` is a real number. -/
theorem isReal_of_all {s : Shape} (hb : S_.BroadcastsInDim s (![] : Fin 0 → Fin s.rank))
    {axes : List (Fin s.rank)} (hr : s.ReducesTo axes S_) (hu : 0 < S_.numel)
    (x : FVec Ideal s .f32) (init : IVec S_ 1) (j : S_.Idx)
    (e : Host.reduce IntOp.andi
          (cmpf .olt (Host.absf x) (broadcastInDim s ![] hb (constant S_ .f32 0x7F800000#32))) init hr hu j = 1#1) :
    IsReal x := by
  intro i
  have hi := Host.reduce_andi_all _ init hr hu j e i
  have hc : Ideal.cmp .olt (max (x i) (-(x i))) (Ideal.ofBits .f32 0x7F800000#32) = 1#1 := hi
  rw [ofBits_inf] at hc
  exact real_of_abs_lt_top _ (of_decide_eq_true ((ofBool_eq_one _).1 hc))

/-- The precondition gives: every entry of every argument array is a real number. -/
theorem isReal_of_pre (x0 : FVec Ideal Cert.Pre_finite_inputs.S10000x128 .f32)
    (x1 x2 : FVec Ideal Cert.Pre_finite_inputs.S10000x32x128 .f32) (x3 : FVec Ideal Cert.Pre_finite_inputs.S1x128 .f32)
    (h : Cert.Pre_finite_inputs.fn (F := Ideal) x0 x1 x2 x3 = fun _ => 1#1) :
    Cert.AttnReduce.IsReal x0 ∧ Cert.AttnReduce.IsReal x1 ∧ Cert.AttnReduce.IsReal x2 ∧ Cert.AttnReduce.IsReal x3 := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨isReal_of_all _ _ _ x0 _ _ h0', isReal_of_all _ _ _ x1 _ _ h1, isReal_of_all _ _ _ x2 _ _ h2,
    isReal_of_all _ _ _ x3 _ _ h3⟩

end Cert.Pre_finite_inputs.Decode

end
-- ==== Proof.RefAttn.lean ====
/-
  The reference program's result is the specification's attention mean, over finite inputs.

  The reference computes, per node n, the scores s_k = Σ_d tanh (a1[n,d] + a2[n,k,d]) · W[0,d] of the 32 neighbours,
  their maximum M (a fold of max from −∞, then once more against −∞), the weights exp (s_k − M) / Σ_k' exp (s_k' − M),
  and the sum over k of weight · ft[n,k,q]. With real inputs every s_k is a real number, so M is one (a maximum of
  finitely many reals, at least one of them), every exp (s_k − M) = exp s_k / exp M is a positive real and so is their
  sum; cancelling exp M gives (Σ_k exp s_k · ft[n,k,q]) / (Σ_k exp s_k), the specification's quotient.
-/
import proofs.«157489_g1451698946386_cont_week2b_1105_6_alg».proof.Proof.Gen.ReferenceIdeal.Read
import proofs.«157489_g1451698946386_cont_week2b_1105_6_alg».proof.Proof.Spec
import Idealize.ShloMosaic.PureOps.Ideal
import Idealize.ShloMosaic.PureOps.Ideal.Laws
import Idealize.ShloMosaic.PureOps.Reduce
import Idealize.ShloMosaic.Lib.ValueIdx
import Mathlib.Data.EReal.Basic
import Mathlib.Data.EReal.Operations
import Mathlib.Analysis.Complex.Exponential
import Mathlib.Algebra.BigOperators.Ring.Finset
import Mathlib.Algebra.Order.BigOperators.Group.Finset
import Mathlib.Data.Finset.Fold
import Mathlib.Tactic.FieldSimp
import Mathlib.Tactic.Ring

noncomputable section

namespace Cert.ReferenceIdeal.RefValue

open Cert.ReferenceIdeal Cert.ReferenceIdeal.Gen Cert.ReferenceIdeal.Read Cert.AttnReduce
open Idealize.ShloMosaic Idealize.ShloMosaic.ValueIdx

/-! ## Extended reals that are reals -/

/-- The inclusion of the reals in the extended reals carries a finite sum to the sum of the inclusions. -/
theorem coe_sum {ι : Type*} (t : Finset ι) (f : ι → ℝ) : ((∑ i ∈ t, f i : ℝ) : EReal) = ∑ i ∈ t, (f i : EReal) := by
  classical
  refine Finset.induction_on t (by simp) fun a t ha ih => ?_
  rw [Finset.sum_insert ha, Finset.sum_insert ha, EReal.coe_add, ih]

/-- The maximum of two reals, taken among the extended reals, is a real. -/
theorem max_coe (r r' : ℝ) : max (r : EReal) (r' : EReal) = ((max r r' : ℝ) : EReal) := by
  rcases le_total r r' with h | h
  · rw [max_eq_right h, max_eq_right (EReal.coe_le_coe_iff.2 h)]
  · rw [max_eq_left h, max_eq_left (EReal.coe_le_coe_iff.2 h)]

/-- A fold of max from −∞ over a nonempty finite family of reals is a real (their maximum). -/
theorem fold_max_real {ι : Type*} (g : ι → EReal) (hg : ∀ k, ∃ r : ℝ, g k = r) (t : Finset ι) (ht : t.Nonempty) :
    ∃ r : ℝ, t.fold max (⊥ : EReal) g = r := by
  induction ht using Finset.Nonempty.cons_induction with
  | singleton a =>
    obtain ⟨r, hr⟩ := hg a
    exact ⟨r, by rw [Finset.fold_singleton, hr, max_eq_left bot_le]⟩
  | cons a t ha _ ih =>
    obtain ⟨r, hr⟩ := hg a
    obtain ⟨r', hr'⟩ := ih
    exact ⟨max r r', by rw [Finset.fold_cons, hr, hr', max_coe]⟩

/-! ## The softmax identity -/

/-- Normalising first and summing afterwards is dividing the weighted sum once: for real scores s, a real shift M and
    real features f over a nonempty index set,
      0 + Σ_k (exp (s_k − M) / (0 + Σ_k' exp (s_k' − M))) · f_k = (Σ_k exp s_k · f_k) / (Σ_k exp s_k). -/
theorem softmax_weighted_sum {n : ℕ} (hn : 0 < n) (s f : Fin n → ℝ) (M : ℝ) :
    (0 : EReal) + ∑ k : Fin n, Ideal.div (Ideal.exp ((s k : EReal) - (M : EReal)))
        ((0 : EReal) + ∑ k' : Fin n, Ideal.exp ((s k' : EReal) - (M : EReal))) * (f k : EReal)
      = Ideal.div (∑ k : Fin n, Ideal.exp (s k : EReal) * (f k : EReal)) (∑ k : Fin n, Ideal.exp (s k : EReal)) := by
  have hne : (Finset.univ : Finset (Fin n)).Nonempty := ⟨⟨0, hn⟩, Finset.mem_univ _⟩
  have hE : (0 : ℝ) < ∑ k : Fin n, Real.exp (s k) := Finset.sum_pos (fun _ _ => Real.exp_pos _) hne
  have hM : (0 : ℝ) < Real.exp M := Real.exp_pos M
  have hD : (0 : ℝ) < ∑ k : Fin n, Real.exp (s k - M) := Finset.sum_pos (fun _ _ => Real.exp_pos _) hne
  have hDE : ∑ k : Fin n, Real.exp (s k - M) = (∑ k : Fin n, Real.exp (s k)) * (Real.exp M)⁻¹ := by
    rw [Finset.sum_mul]
    exact Finset.sum_congr rfl fun k _ => by rw [Real.exp_sub, div_eq_mul_inv]
  have eD : (0 : EReal) + ∑ k' : Fin n, Ideal.exp ((s k' : EReal) - (M : EReal))
      = ((∑ k : Fin n, Real.exp (s k - M) : ℝ) : EReal) := by
    rw [zero_add, coe_sum]
    exact Finset.sum_congr rfl fun k _ => by rw [← EReal.coe_sub, Ideal.exp_coe]
  have eN : ∑ k : Fin n, Ideal.exp (s k : EReal) * (f k : EReal) = ((∑ k : Fin n, Real.exp (s k) * f k : ℝ) : EReal) := by
    rw [coe_sum]
    exact Finset.sum_congr rfl fun k _ => by rw [Ideal.exp_coe, ← EReal.coe_mul]
  have eE : ∑ k : Fin n, Ideal.exp (s k : EReal) = ((∑ k : Fin n, Real.exp (s k) : ℝ) : EReal) := by
    rw [coe_sum]
    exact Finset.sum_congr rfl fun k _ => by rw [Ideal.exp_coe]
  rw [eD, eN, eE, Ideal.div_coe hE.ne', ← EReal.coe_mul, zero_add]
  have eT : ∀ k : Fin n, Ideal.div (Ideal.exp ((s k : EReal) - (M : EReal))) ((∑ k : Fin n, Real.exp (s k - M) : ℝ) : EReal) * (f k : EReal)
      = ((Real.exp (s k - M) * (1 / ∑ k : Fin n, Real.exp (s k - M)) * f k : ℝ) : EReal) := fun k => by
    rw [Ideal.div_coe hD.ne', ← EReal.coe_sub, Ideal.exp_coe, ← EReal.coe_mul, ← EReal.coe_mul]
  rw [Finset.sum_congr rfl fun k _ => eT k, ← coe_sum]
  refine congrArg _ ?_
  rw [Finset.sum_mul]
  refine Finset.sum_congr rfl fun k _ => ?_
  rw [hDE, Real.exp_sub]
  field_simp

/-! ## The reference, stage by stage -/

section Stages

variable (x0 : (⟨S10000x128, .f32⟩ : BufTy).Contents (Elt Ideal)) (x1 x2 : (⟨S10000x32x128, .f32⟩ : BufTy).Contents (Elt Ideal))
  (x3 : (⟨S1x128, .f32⟩ : BufTy).Contents (Elt Ideal))

/-- The score of real inputs is a real: a finite sum of products of a hyperbolic tangent and a weight. -/
theorem score_real (h0 : IsReal x0) (h1 : IsReal x1) (h3 : IsReal x3) (n : Fin 10000) (k : Fin 32) :
    ∃ r : ℝ, score x0 x1 x3 n k = r := by
  have h0' : ∀ i, ∃ r : ℝ, x0 i = (r : EReal) := h0
  have h1' : ∀ i, ∃ r : ℝ, x1 i = (r : EReal) := h1
  have h3' : ∀ i, ∃ r : ℝ, x3 i = (r : EReal) := h3
  choose a ha using h0'
  choose b hb using h1'
  choose w hw using h3'
  refine ⟨∑ d : Fin 128, Real.tanh (a (ix2 n d) + b (ix3 n k d)) * w (ix2 (0 : Fin 1) d), ?_⟩
  unfold score
  rw [coe_sum]
  exact Finset.sum_congr rfl fun d _ => by rw [ha, hb, hw, ← EReal.coe_add, Ideal.tanh_coe, ← EReal.coe_mul]

/-- The contraction with W, read at an index, is the score of that node and neighbour. -/
theorem v4_eq (j : S10000x32x1.Idx) : val_main_v4 (F := Ideal) x0 x1 x3 j = score x0 x1 x3 (j 0) (j 1) := by
  rw [val_main_v4_apply]
  unfold score
  refine Finset.sum_congr rfl fun d _ => ?_
  rw [val_main_v3_apply, val_main_v2_apply, val_main_v1_apply, val_main_v0_apply]
  have e0 : idx_main_v0 (idx_main_v1 (lidx_main_v4 j d)) = ix2 (j 0) d :=
    funext fun a => Fin.ext (by match a with | ⟨0, _⟩ => rfl | ⟨1, _⟩ => rfl)
  have e1 : lidx_main_v4 j d = ix3 (j 0) (j 1) d :=
    funext fun a => Fin.ext (by match a with | ⟨0, _⟩ => rfl | ⟨1, _⟩ => rfl | ⟨2, _⟩ => rfl)
  have e3 : ridx_main_v4 j d = ix2 (0 : Fin 1) d :=
    funext fun a => Fin.ext (by
      match a with
      | ⟨0, _⟩ => exact Nat.lt_one_iff.1 (j 2).isLt
      | ⟨1, _⟩ => rfl)
  rw [e0, e1, e3]
  rfl

/-- The row maximum of real inputs is a real: a fold of max from −∞ over the 32 real scores of the row, then the
    maximum with −∞ once more. -/
theorem v7_real (h0 : IsReal x0) (h1 : IsReal x1) (h3 : IsReal x3) (j : S10000x1.Idx) :
    ∃ M : ℝ, val_main_v7 (F := Ideal) x0 x1 x3 j = M := by
  have hred : S10000x32x1.Reduces [1] S10000x1 := by decide
  have h4 : ∀ q : S10000x32x1.Idx, ∃ r : ℝ, val_main_v4 (F := Ideal) x0 x1 x3 q = r := fun q => by
    rw [v4_eq]; exact score_real x0 x1 x3 h0 h1 h3 _ _
  obtain ⟨r, hr⟩ := fold_max_real (val_main_v4 (F := Ideal) x0 x1 x3 ∘ hred.lift j) (fun k => h4 _) Finset.univ
    ⟨⟨0, by decide⟩, Finset.mem_univ _⟩
  refine ⟨r, ?_⟩
  have hb : FloatOps.ofBits (F := Ideal) .f32 0xFF800000#32 = (⊥ : EReal) := by
    rw [Ideal.ofBits_def]; simp [Ideal.ofBits, Ideal.ieee]
  rw [val_main_v7_apply, val_main_v6_apply, val_main_cst_0_apply]
  unfold val_main_v5
  rw [Host.reduce_eq_fold_single FloatOps.maximumf _ _ reducesTo_S10000x32x1_S10000x1_d1 hred h_S_ j, val_main_cst_apply, hb]
  show max (⊥ : EReal) (Finset.univ.fold max ⊥ _) = _
  rw [max_eq_right bot_le]
  exact hr

/-- The shifted exponential at node n and neighbour k. -/
theorem v11_eq (n : Fin 10000) (k : Fin 32) :
    val_main_v11 (F := Ideal) x0 x1 x3 (ix3 n k (0 : Fin 1))
      = Ideal.exp (score x0 x1 x3 n k - val_main_v7 (F := Ideal) x0 x1 x3 (ix2 n (0 : Fin 1))) := by
  rw [val_main_v11_apply, val_main_v10_apply, val_main_v9_apply, val_main_v8_apply, v4_eq]
  have e : idx_main_v8 (idx_main_v9 (ix3 n k (0 : Fin 1))) = ix2 n (0 : Fin 1) :=
    funext fun a => Fin.ext (by match a with | ⟨0, _⟩ => rfl | ⟨1, _⟩ => rfl)
  rw [e]
  rfl

/-- The normalised weight at node n and neighbour k: the shifted exponential over the row's sum of them. -/
theorem v15_eq (n : Fin 10000) (k : Fin 32) :
    val_main_v15 (F := Ideal) x0 x1 x3 (ix3 n k (0 : Fin 1))
      = Ideal.div (val_main_v11 (F := Ideal) x0 x1 x3 (ix3 n k (0 : Fin 1)))
          ((0 : EReal) + ∑ k' : Fin 32, val_main_v11 (F := Ideal) x0 x1 x3 (ix3 n k' (0 : Fin 1))) := by
  rw [val_main_v15_apply, val_main_v14_apply, val_main_v13_apply, val_main_v12_apply, val_main_cst_1_apply]
  have e : ∀ k' : Fin 32, idx_main_v12 (idx_main_v13 (idx_main_v14 (ix3 n k (0 : Fin 1)))) k' = ix3 n k' (0 : Fin 1) := fun k' =>
    funext fun a => Fin.ext (by match a with | ⟨0, _⟩ => rfl | ⟨1, _⟩ => rfl | ⟨2, _⟩ => rfl)
  simp only [e, Ideal.hostDivf_def, Ideal.ofBits_def, Ideal.ofBits_zero_f32]

/-- The result at (n, q): the sum over the neighbours of weight times feature. -/
theorem v18_eq (n : Fin 10000) (q : Fin 128) :
    val_main_v18 (F := Ideal) x0 x1 x2 x3 (ix2 n q)
      = (0 : EReal) + ∑ k : Fin 32, val_main_v15 (F := Ideal) x0 x1 x3 (ix3 n k (0 : Fin 1)) * x2 (ix3 n k q) := by
  rw [val_main_v18_apply, val_main_cst_2_apply]
  have e : ∀ k : Fin 32, val_main_v17 (F := Ideal) x0 x1 x2 x3 (idx_main_v18 (ix2 n q) k)
      = val_main_v15 (F := Ideal) x0 x1 x3 (ix3 n k (0 : Fin 1)) * x2 (ix3 n k q) := fun k => by
    rw [val_main_v17_apply, val_main_v16_apply]
    have e16 : idx_main_v16 (idx_main_v18 (ix2 n q) k) = ix3 n k (0 : Fin 1) :=
      funext fun a => Fin.ext (by match a with | ⟨0, _⟩ => rfl | ⟨1, _⟩ => rfl | ⟨2, _⟩ => rfl)
    have e18 : idx_main_v18 (ix2 n q) k = ix3 n k q :=
      funext fun a => Fin.ext (by match a with | ⟨0, _⟩ => rfl | ⟨1, _⟩ => rfl | ⟨2, _⟩ => rfl)
    rw [e16, e18]
    rfl
  simp only [e, Ideal.ofBits_def, Ideal.ofBits_zero_f32]

end Stages

/-! ## The claim -/

/-- Over finite inputs the reference's result is the specification's attention mean. -/
theorem ref_eq_attn (x0 : (⟨S10000x128, .f32⟩ : BufTy).Contents (Elt Ideal)) (x1 x2 : (⟨S10000x32x128, .f32⟩ : BufTy).Contents (Elt Ideal))
    (x3 : (⟨S1x128, .f32⟩ : BufTy).Contents (Elt Ideal))
    (h0 : Cert.AttnReduce.IsReal x0) (h1 : Cert.AttnReduce.IsReal x1) (h2 : Cert.AttnReduce.IsReal x2) (h3 : Cert.AttnReduce.IsReal x3) :
    Cert.ReferenceIdeal.Read.val_main_v18 (F := Ideal) x0 x1 x2 x3 = Cert.AttnReduce.attn x0 x1 x2 x3 := by
  funext i
  obtain ⟨n, q, rfl⟩ : ∃ (n : Fin 10000) (q : Fin 128), i = ix2 n q := ⟨i 0, i 1, eq_ix2 (n0 := 10000) (n1 := 128) i⟩
  have hs : ∀ k : Fin 32, ∃ r : ℝ, score x0 x1 x3 n k = r := fun k => score_real x0 x1 x3 h0 h1 h3 n k
  choose s hs using hs
  have hf : ∀ k : Fin 32, ∃ r : ℝ, x2 (ix3 n k q) = (r : EReal) := fun k => h2 _
  choose f hf using hf
  obtain ⟨M, hM⟩ := v7_real x0 x1 x3 h0 h1 h3 (ix2 n (0 : Fin 1))
  rw [v18_eq x0 x1 x2 x3 n q]
  simp only [v15_eq, v11_eq, hM, hs, hf]
  rw [softmax_weighted_sum (by decide) s f M]
  show _ = Ideal.div (∑ k : Fin 32, Ideal.exp (score x0 x1 x3 n k) * x2 (ix3 n k q)) (∑ k : Fin 32, Ideal.exp (score x0 x1 x3 n k))
  simp only [hs, hf]

end Cert.ReferenceIdeal.RefValue

end
-- ==== Proof.KernelFrame.lean ====
import proofs.«157489_g1451698946386_cont_week2b_1105_6_alg».proof.Proof.Gen.Kernel.Frame
import proofs.«157489_g1451698946386_cont_week2b_1105_6_alg».proof.Proof.Gen.Kernel.Skeleton
import Idealize.ShloMosaic.Lib.Pipeline.Kit
import Idealize.ShloMosaic.Lib.Pipeline.Value
import Idealize.ShloMosaic.Lib.Pipeline.FrameBody
import Idealize.ShloMosaic.Lib.Tactic

/-!
# The frame of the word-level program

The program is one pipelined region over a grid of 17 points. Three input windows and the output window
have blocks of 624 rows over arrays of 10000 rows, so the last point's blocks overhang their arrays: 16 rows
lie inside. The body reads each of its five staging buffers whole and writes the output's buffer whole with
one value computed from the first four reads.

The frame claim speaks of the four argument arrays only. The three staged ones are inputs, never written back;
the fourth is staged by no window. The output array is forgotten: its buffer is handed to the body at unnamed
contents and taken back at unnamed contents, so nothing has to be said of the rows of the staging buffers that
lie past the arrays' ends.
-/

set_option maxRecDepth 16384

noncomputable section

namespace Cert.Kernel.BodyFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- The zero offsets of a rank-2 access, however spelt. -/
theorem hz2 : (![0, 0] : Fin 2 → Nat) = fun _ => 0 := by
  funext a; fin_cases a <;> rfl

/-- The zero offsets of a rank-3 access. -/
theorem hz3 : (![0, 0, 0] : Fin 3 → Nat) = fun _ => 0 := by
  funext a; fin_cases a <;> rfl

/-- The whole-buffer rectangle of the output's staging buffer. -/
abbrev rOut : Rect S624x128 := Rect.unit (s := S624x128) ![0, 0] S624x128.size Gen.inb_S624x128_S624x128_0_0

/-- The one store covers the buffer. -/
theorem coverOut (p0 : Vec F S624x128 .f32) (y : S624x128.Idx) :
    ∃ pc ∈ ([⟨rOut, p0⟩] : List (View.Piece (Elt F) S624x128 .f32)), y ∈ pc.1.set :=
  ⟨_, List.mem_singleton_self _, View.mem_set_unit_zero hz2 Gen.inb_S624x128_S624x128_0_0 y⟩

set_option maxHeartbeats 1000000 in
/-- The body on whole staging memrefs, the four inputs' at contents `x0 … x3` and the output's at anything, runs
    to the continuation holding the inputs' as they were and the output's at the payload of those contents: every
    access is the whole buffer at offset zero, so each load reads the contents themselves and the one store
    leaves its payload. -/
theorem sound_kernel (c : Dev nD) (E : Set ℕ) (i : grid0.Coords)
    (arg1 : Memref sig .tc .vmem S624x128 .f32) (harg1 : arg1.IsWhole)
    (arg2 : Memref sig .tc .vmem S624x32x128 .f32) (harg2 : arg2.IsWhole)
    (arg3 : Memref sig .tc .vmem S624x32x128 .f32) (harg3 : arg3.IsWhole)
    (arg4 : Memref sig .tc .vmem S128x128 .f32) (harg4 : arg4.IsWhole)
    (arg5 : Memref sig .tc .vmem S624x128 .f32) (harg5 : arg5.IsWhole)
    (x0 : Vec F S624x128 .f32) (x1 x2 : Vec F S624x32x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverOut _)]
  rw [View.canon_unit_zero hz2]
  simp only [View.readAt_eq_ld]
  rw [View.ld_unit_zero hz2, View.ld_unit_zero hz3, View.ld_unit_zero hz3, View.ld_unit_zero hz2]

/-! ## The pipeline's proof data -/

variable (m : (ℓ : Loc nD τ sig) → Buf (Elt F) ℓ) (ρ : Dev nD → PrngReg)

/-- The windows the frame forgets: the output's. -/
abbrev fgt : Fin cfg0.W → Bool := fun | 0 => false | 1 => false | 2 => false | 3 => false | 4 => true | ⟨_ + 5, h⟩ => absurd h (Nat.not_lt.2 (Nat.le_add_left _ _))

/-- Words nothing names: what fills a cut block out past the array's end. -/
def pad (w : Fin cfg0.W) : (cfg0.win w).block.Idx → Elt F (cfg0.win w).elt := fun _ => Classical.arbitrary _

/-- Window `w`'s block at point `t` on the rows inside the array, `d` on the rest of the staging buffer. -/
def full (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data of the one pipeline on core `c`: the arrays as the region finds them; after the body each cut
    input's buffer at its block on the rows inside the array, the weight block's buffer at its block, the output's
    at contents nothing names; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => full m c 0 t (pad 0)
    | ⟨1, _⟩ => full m c 1 t (pad 1)
    | ⟨2, _⟩ => full m c 2 t (pad 2)
    | ⟨3, _⟩ => iblk m c 3 t
    | ⟨4, _⟩ => Pipeline.Dat.unnamed 4 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = full m c 0 t (pad 0) := by dsimp only [dats]
theorem after0_1 (c : Dev nD) (t : Fin cfg0.N) : (dats m 0 c).after 1 t = full m c 1 t (pad 1) := by dsimp only [dats]
theorem after0_2 (c : Dev nD) (t : Fin cfg0.N) : (dats m 0 c).after 2 t = full m c 2 t (pad 2) := by dsimp only [dats]
theorem after0_3 (c : Dev nD) (t : Fin cfg0.N) : (dats m 0 c).after 3 t = iblk m c 3 t := by dsimp only [dats]

/-- A window fetched at every point is found just fetched: its block on the rows inside the array, `d` elsewhere. -/
theorem before_fetched (c : Dev nD) (w : Fin cfg0.W) (hf : ∀ t, (cfg0.win w).fetch t = true) (t : Fin cfg0.N) (d) :
    (dats m 0 c).before w t d = full m c w t d := by
  unfold Dat.before; rw [if_pos (hf t)]; unfold Dat.fetched Dat.blockOf full iblk; rw [A_eq]

theorem before0_0 (c : Dev nD) (t : Fin cfg0.N) (d) : (dats m 0 c).before 0 t d = full m c 0 t d :=
  before_fetched m c 0 fetch0_0 t d
theorem before0_1 (c : Dev nD) (t : Fin cfg0.N) (d) : (dats m 0 c).before 1 t d = full m c 1 t d :=
  before_fetched m c 1 fetch0_1 t d
theorem before0_2 (c : Dev nD) (t : Fin cfg0.N) (d) : (dats m 0 c).before 2 t d = full m c 2 t d :=
  before_fetched m c 2 fetch0_2 t d
/-- The weight block's buffer, fetched once, holds the block at every point. -/
theorem before0_3 (c : Dev nD) (t : Fin cfg0.N) (d) : (dats m 0 c).before 3 t d = iblk m c 3 t :=
  before0_3_of m (dats m 0 c) (A_eq m c 3) (after0_3 m c) t d

/-- Cutting a filled block back gives the block, whatever filled it out. -/
theorem fill_cut_full (c : Dev nD) (w : Fin cfg0.W) (t : Fin cfg0.N) (d d' : (cfg0.win w).block.Idx → Elt F (cfg0.win w).elt) :
    (cfg0.win w).fill (cfg0.grid.coords t) d ((cfg0.win w).cut (cfg0.grid.coords t) (full m c w t d')) = full m c w t d := by
  unfold full; rw [Window.cut_fill]

/-! ## The body obligation -/

/-- The library's body obligation with the output's window forgotten, at every point: the three cut inputs' buffers
    arrive just fetched (their blocks on the rows inside the array, any words past it), the weight block's holding its
    block, the output's holding anything; the body leaves the inputs' as they were, which on the rows inside the
    array is all their obligations state, and the output's at some contents. -/
theorem body_obligation (c : Dev nD) :
    Pipeline.BodyObligationLoose (dats (F := F) m 0 c) (defs₀ (F := F)) Variants.none () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl,
    after0_0, after0_1, after0_2, after0_3]
  change _ ⊢ wp frame (wpE (defs₀ (F := F)) Variants.none c none) Set.univ (bodyAt0 t) _
  iintro ⟨HΦ, Ho, ⟨%d0, H0⟩, ⟨%d1, H1⟩, ⟨%d2, H2⟩, ⟨%d3, H3⟩, ⟨%X, H4⟩⟩
  rw [before0_0 m c t d0, before0_1 m c t d1, before0_2 m c t d2, before0_3 m c t d3]
  iapply (sound_kernel (F := F) c Set.univ (grid0.coords t) _ _ _ _ _ _ _ _ _ _
    (full m c 0 t d0) (full m c 1 t d1) (full m c 2 t d2) (iblk m c 3 t) _)
  isplitl [H0]; · iexact H0
  isplitl [H1]; · iexact H1
  isplitl [H2]; · iexact H2
  isplitl [H3]; · iexact H3
  isplitl [H4]; · iexists X; iexact H4
  iintro ⟨H0, H1, H2, H3, H4⟩
  isplitl [HΦ]; · iexact HΦ
  isplitl [Ho]; · iexact Ho
  isplitl [H0]
  · iexists d0
    change _ ⊢ owns (c : Thread nD τ) (st0_0 t) fullShare ((cfg0.win 0).fill (cfg0.grid.coords t) d0 ((cfg0.win 0).cut (cfg0.grid.coords t) (full m c 0 t (pad 0))))
    rw [fill_cut_full]
  isplitl [H1]
  · iexists d1
    change _ ⊢ owns (c : Thread nD τ) (st0_1 t) fullShare ((cfg0.win 1).fill (cfg0.grid.coords t) d1 ((cfg0.win 1).cut (cfg0.grid.coords t) (full m c 1 t (pad 1))))
    rw [fill_cut_full]
  isplitl [H2]
  · iexists d2
    change _ ⊢ owns (c : Thread nD τ) (st0_2 t) fullShare ((cfg0.win 2).fill (cfg0.grid.coords t) d2 ((cfg0.win 2).cut (cfg0.grid.coords t) (full m c 2 t (pad 2))))
    rw [fill_cut_full]
  isplitl [H3]; · iexact H3
  iexists _; iexact H4

/-! ## The run and the frame -/

set_option backward.isDefEq.respectTransparency.types false in
/-- At the compiled mesh, for any values, from any memory with zero counters: every weakly fair execution of @main on
    the TensorCores terminates, and every final state has each input array of the pipeline at its contents when the
    region was entered, the output array at some contents, and every other unscoped buffer as the region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => (dats m 0 c).share_full fun _ => rfl)
    (howed := fun _ _ => rfl) (V := V m) (hmain := hmain m Variants.none) (hA := A_eq m) (hΦ := fun _ _ => rfl)

/-- The frame: the three staged argument arrays are inputs of the pipeline, which end at their contents when the region
    was entered; the fourth is staged by no window and bypasses the region; none is written by the host operations
    before the region, so each ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.arr_in c 0 rfl).trans ((A_eq m c 0).trans (V_main_arg0 m c)),
      (h.arr_in c 1 rfl).trans ((A_eq m c 1).trans (V_main_arg1 m c)),
      (h.arr_in c 2 rfl).trans ((A_eq m c 2).trans (V_main_arg2 m c)),
      ((h c).2 main_arg3 (Pipeline.mem_restRefs_of main_arg3 (by decide) (by decide))).trans (V_main_arg3 m c)⟩)
    (run_main m ρ)

end Cert.Kernel.BodyFrame

end
-- ==== Proof.KernelIdealData.lean ====
/-
  What the idealized kernel's staging buffers hold after the body, point by point.

  At grid point `t` the three node windows hold rows `624·t … 624·t + 623` of `a1`, `a2`, `ft`; at the last
  point only 16 of those rows lie inside the arrays, and the rest of each buffer holds values nothing names.
  The body's result at a row depends on that row of the three tiles only, so on the rows inside the array the
  output buffer holds the payload of the tiles with ANY filler past the arrays' end: the proof data name it with
  the zero filler.
-/
import proofs.«157489_g1451698946386_cont_week2b_1105_6_alg».proof.Proof.Gen.KernelIdeal.Frame
import proofs.«157489_g1451698946386_cont_week2b_1105_6_alg».proof.Proof.Gen.KernelIdeal.Skeleton
import Idealize.ShloMosaic.Lib.Pipeline.Kit
import Idealize.ShloMosaic.Lib.Pipeline.FrameBody
import Idealize.ShloMosaic.PureOps.Ideal

noncomputable section

namespace Cert.KernelIdeal.BodyValue

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable (m : (ℓ : Loc nD τ sig) → Buf (Elt Ideal) ℓ)

/-- The three node tiles at point `t`: the window's block on the rows inside the array, zero past its end. -/
def tile0 (c : Dev nD) (t : Fin cfg0.N) : S624x128.Idx → Elt Ideal .f32 :=
  win0_0.fill (grid0.coords t) (fun _ => (0 : EReal)) (iblk m c 0 t)
def tile1 (c : Dev nD) (t : Fin cfg0.N) : S624x32x128.Idx → Elt Ideal .f32 :=
  win0_1.fill (grid0.coords t) (fun _ => (0 : EReal)) (iblk m c 1 t)
def tile2 (c : Dev nD) (t : Fin cfg0.N) : S624x32x128.Idx → Elt Ideal .f32 :=
  win0_2.fill (grid0.coords t) (fun _ => (0 : EReal)) (iblk m c 2 t)
/-- The weight block, the same at every point. -/
def wblk (c : Dev nD) (t : Fin cfg0.N) : S128x128.Idx → Elt Ideal .f32 := iblk m c 3 t

/-- The proof data of the one pipeline on core `c`: the arrays as the region finds them; after the body the node
    windows' buffers at their tiles, the weight's at its block, the output's at the payload of those. -/
def dats (_ : Fin 1) (c : Dev nD) : Dat τ (Elt Ideal) Unit ℕ (UR sig nD τ) ℕ cfg0 c where
  A w := V m c (Pipeline.arrRef spec0 w)
  after w t := match w with
    | ⟨0, _⟩ => tile0 m c t
    | ⟨1, _⟩ => tile1 m c t
    | ⟨2, _⟩ => tile2 m c t
    | ⟨3, _⟩ => wblk m c t
    | ⟨4, _⟩ => k0_pay1 (F := Ideal) (tile0 m c t) (tile1 m c t) (tile2 m c t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tile0 m c t := by dsimp only [dats]
theorem after0_1 (c : Dev nD) (t : Fin cfg0.N) : (dats m 0 c).after 1 t = tile1 m c t := by dsimp only [dats]
theorem after0_2 (c : Dev nD) (t : Fin cfg0.N) : (dats m 0 c).after 2 t = tile2 m c t := by dsimp only [dats]
theorem after0_3 (c : Dev nD) (t : Fin cfg0.N) : (dats m 0 c).after 3 t = iblk m c 3 t := by dsimp only [dats, wblk]
theorem after0_4 (c : Dev nD) (t : Fin cfg0.N) :
    (dats m 0 c).after 4 t = k0_pay1 (F := Ideal) (tile0 m c t) (tile1 m c t) (tile2 m c t) (wblk m c t) := by
  dsimp only [dats]

end Cert.KernelIdeal.BodyValue

end
-- ==== Proof.KernelPayload.lean ====
/-
  The kernel body's result at one entry, over the extended reals.

  A grid point's body works on a tile of 624 nodes. With `x` the tile of `a1` [624,128], `y` the tile of `a2`
  [624,32,128], `f` the tile of `ft` [624,32,128] and `w` the 128×128 weight block, the entry `(p, q)` of what it
  stores is
      (Σ_k exp (S p k q) · f[p,k,q]) / (Σ_k exp (S p k q)),     S p k q = Σ_d tanh (x[p,d] + y[p,k,d]) · w[d,q] :
  the rows of the flattened [19968,128] operand of the matrix product are the pairs (p,k) in row-major order, a
  product into the zero accumulator is the plain sum over the contracted feature axis, and the two lane
  reductions are sums over the 32 neighbours. In particular entry `(p, q)` depends on row `p` of each tile only.
-/
import proofs.«157489_g1451698946386_cont_week2b_1105_6_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx

/-- The tile's score of neighbour `k` of row `p` as lane `q` of the matrix product sees it. -/
def tileScore (x : Vec Ideal S624x128 .f32) (y : Vec Ideal S624x32x128 .f32) (w : Vec Ideal S128x128 .f32)
    (p : Fin 624) (k : Fin 32) (q : Fin 128) : EReal :=
  ∑ d : Fin 128, Ideal.tanh (x (ix2 p d) + y (ix3 p k d)) * w (ix2 d q)

/-- Row `p·32 + k` of the flattened operand is `tanh (x[p,·] + y[p,k,·])`. -/
theorem lhs_apply (x : Vec Ideal S624x128 .f32) (y : Vec Ideal S624x32x128 .f32) (p : Fin 624) (k : Fin 32) (d : Fin 128)
    (r : Fin 19968) (hr : r.val = p.val * 32 + k.val) :
    (shapeCast S19968x128 (tanh (F := Ideal) (φ := .f32) (addf (F := Ideal) (φ := .f32) (broadcastTo S624x32x128 (shapeCast S624x1x128 x shapeCasts_S624x128_S624x1x128)
        broadcasts_S624x1x128_S624x32x128) y)) shapeCasts_S624x32x128_S19968x128 : FVec Ideal S19968x128 .f32) (ix2 r d)
      = Ideal.tanh (x (ix2 p d) + y (ix3 p k d)) := by
  refine (shapeCast_apply _ shapeCasts_S624x32x128_S19968x128 (ix2 r d) (ix3 p k d) ?_).trans ?_
  · rw [Shape.rowMajor_val_three, Shape.rowMajor_val_two]
    show (p.val * 32 + k.val) * 128 + d.val = r.val * 128 + d.val
    rw [hr]
  show Ideal.tanh (broadcastTo S624x32x128 (shapeCast S624x1x128 x shapeCasts_S624x128_S624x1x128)
      broadcasts_S624x1x128_S624x32x128 (ix3 p k d) + y (ix3 p k d)) = _
  rw [broadcastTo_apply _ broadcasts_S624x1x128_S624x32x128 (ix3 p k d) (ix3 p (0 : Fin 1) d) (fun a => by
    match a with
    | ⟨0, _⟩ => rfl
    | ⟨1, _⟩ => rfl
    | ⟨2, _⟩ => rfl)]
  rw [shapeCast_apply x shapeCasts_S624x128_S624x1x128 (ix3 p (0 : Fin 1) d) (ix2 p d) (by
    rw [Shape.rowMajor_val_three, Shape.rowMajor_val_two]
    show p.val * 128 + d.val = (p.val * 1 + 0) * 128 + d.val
    omega)]

/-! ### The matrix product at an entry -/

theorem lhs_axis0 (i : S19968x128.Idx) (q : dot_S19968x128_S128x128_S19968x128_1_0_0_1_n_n.contr.Idx) :
    (dot_S19968x128_S128x128_S19968x128_1_0_0_1_n_n.lhsIdx i q 0).val = (i 0).val := by
  unfold DotDims.lhsIdx
  rw [dif_neg (show ¬(0 : Fin S19968x128.rank) ∈ dot_S19968x128_S128x128_S19968x128_1_0_0_1_n_n.lhsBatch by decide), dif_pos (show (0 : Fin S19968x128.rank) ∈ dot_S19968x128_S128x128_S19968x128_1_0_0_1_n_n.lhsNonContracting by decide)]
  rfl
theorem lhs_axis1 (i : S19968x128.Idx) (q : dot_S19968x128_S128x128_S19968x128_1_0_0_1_n_n.contr.Idx) :
    (dot_S19968x128_S128x128_S19968x128_1_0_0_1_n_n.lhsIdx i q 1).val = (q ⟨0, by decide⟩).val :=
  dot_S19968x128_S128x128_S19968x128_1_0_0_1_n_n.lhsIdx_val_of_single rfl i q
theorem rhs_axis0 (i : S19968x128.Idx) (q : dot_S19968x128_S128x128_S19968x128_1_0_0_1_n_n.contr.Idx) :
    (dot_S19968x128_S128x128_S19968x128_1_0_0_1_n_n.rhsIdx i q 0).val = (q ⟨0, by decide⟩).val :=
  dot_S19968x128_S128x128_S19968x128_1_0_0_1_n_n.rhsIdx_val_of_single rfl i q
theorem rhs_axis1 (i : S19968x128.Idx) (q : dot_S19968x128_S128x128_S19968x128_1_0_0_1_n_n.contr.Idx) :
    (dot_S19968x128_S128x128_S19968x128_1_0_0_1_n_n.rhsIdx i q 1).val = (i 1).val := by
  unfold DotDims.rhsIdx
  rw [dif_neg (show ¬(1 : Fin S128x128.rank) ∈ dot_S19968x128_S128x128_S19968x128_1_0_0_1_n_n.rhsBatch by decide), dif_pos (show (1 : Fin S128x128.rank) ∈ dot_S19968x128_S128x128_S19968x128_1_0_0_1_n_n.rhsNonContracting by decide)]
  rfl

/-- A product into the zero accumulator, at entry `(r, q)`: the sum over the contracted feature axis. -/
theorem product_apply (A : FVec Ideal S19968x128 .f32) (B : FVec Ideal S128x128 .f32) (r : Fin 19968) (q : Fin 128) :
    matmul dot_S19968x128_S128x128_S19968x128_1_0_0_1_n_n none A B (constant (F := Ideal) S19968x128 .f32 0x00000000#32) (ix2 r q)
      = ∑ d : Fin 128, A (ix2 r d) * B (ix2 d q) := by
  simp only [matmul]
  rw [Ideal.matmul_constant_zero_apply, ← Equiv.sum_comp (ValueIdx.contrEquiv1 dot_S19968x128_S128x128_S19968x128_1_0_0_1_n_n 128 rfl rfl).symm]
  refine Finset.sum_congr rfl fun k _ => ?_
  have hk := ValueIdx.contrEquiv1_symm_val dot_S19968x128_S128x128_S19968x128_1_0_0_1_n_n 128 rfl rfl k
  have el : dot_S19968x128_S128x128_S19968x128_1_0_0_1_n_n.lhsIdx (ix2 r q) ((ValueIdx.contrEquiv1 dot_S19968x128_S128x128_S19968x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S19968x128_S128x128_S19968x128_1_0_0_1_n_n.rhsIdx (ix2 r q) ((ValueIdx.contrEquiv1 dot_S19968x128_S128x128_S19968x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ### The lane reductions and the whole payload -/

/-- A sum over the 32 neighbours of a [624,32,128] tile, at entry `(p, q)`. -/
theorem nbrSum_apply (src : FVec Ideal S624x32x128 .f32) (hφ : FKind.Formats .f32)
    (hacc : (0x00000000#32 : BitVec 32) = FKind.add.neutral .f32 hφ) (p : Fin 624) (q : Fin 128) :
    multiReduction .add [1] S624x128 src 0x00000000#32 reduces_S624x32x128_S624x128 hφ hacc (ix2 p q)
      = ∑ k : Fin 32, src (ix3 p k q) := by
  refine (Ideal.multiReduction_add_single src 0x00000000#32 reduces_S624x32x128_S624x128 hφ hacc (ix2 p q)).trans ?_
  refine Finset.sum_congr rfl fun k _ => congrArg src (funext fun a => Fin.ext ?_)
  match a with
  | ⟨0, _⟩ => rfl
  | ⟨1, _⟩ => rfl
  | ⟨2, _⟩ => rfl

/-- The tile of `exp score`, at `(p, k, q)`. -/
theorem expTile_apply (x : Vec Ideal S624x128 .f32) (y : Vec Ideal S624x32x128 .f32) (w : Vec Ideal S128x128 .f32)
    (p : Fin 624) (k : Fin 32) (q : Fin 128) :
    (exp (F := Ideal) (φ := .f32) (shapeCast S624x32x128
        (matmul dot_S19968x128_S128x128_S19968x128_1_0_0_1_n_n none
          (shapeCast S19968x128 (tanh (F := Ideal) (φ := .f32) (addf (F := Ideal) (φ := .f32) (broadcastTo S624x32x128
            (shapeCast S624x1x128 x shapeCasts_S624x128_S624x1x128) broadcasts_S624x1x128_S624x32x128) y))
            shapeCasts_S624x32x128_S19968x128 : FVec Ideal S19968x128 .f32)
          (shapeCast S128x128 w shapeCasts_S128x128_S128x128 : FVec Ideal S128x128 .f32)
          (constant (F := Ideal) S19968x128 .f32 0x00000000#32))
        shapeCasts_S19968x128_S624x32x128) : FVec Ideal S624x32x128 .f32) (ix3 p k q)
      = Ideal.exp (tileScore x y w p k q) := by
  have hlt : p.val * 32 + k.val < 19968 := by have := p.isLt; have := k.isLt; omega
  show Ideal.exp (shapeCast S624x32x128 _ shapeCasts_S19968x128_S624x32x128 (ix3 p k q)) = _
  rw [shapeCast_apply _ shapeCasts_S19968x128_S624x32x128 (ix3 p k q) (ix2 (⟨p.val * 32 + k.val, hlt⟩ : Fin 19968) q) (by
    rw [Shape.rowMajor_val_three, Shape.rowMajor_val_two]; rfl)]
  rw [product_apply]
  unfold tileScore
  refine congrArg Ideal.exp (Finset.sum_congr rfl fun d _ => ?_)
  rw [lhs_apply x y p k d ⟨p.val * 32 + k.val, hlt⟩ rfl, shapeCast_self]

/-- THE PAYLOAD AT AN ENTRY: the weighted sum of the features over the sum of the weights. -/
theorem pay_apply (x : Vec Ideal S624x128 .f32) (y f : Vec Ideal S624x32x128 .f32) (w : Vec Ideal S128x128 .f32)
    (p : Fin 624) (q : Fin 128) :
    k0_pay1 (F := Ideal) x y f w (ix2 p q)
      = Ideal.div (∑ k : Fin 32, Ideal.exp (tileScore x y w p k q) * f (ix3 p k q))
          (∑ k : Fin 32, Ideal.exp (tileScore x y w p k q)) := by
  unfold k0_pay1
  refine (divf_apply _ _ (ix2 p q)).trans ?_
  refine congrArg₂ Ideal.div ?_ ?_
  · refine (nbrSum_apply _ _ _ p q).trans (Finset.sum_congr rfl fun k _ => ?_)
    refine (mulf_apply _ _ (ix3 p k q)).trans ?_
    exact congrArg (· * f (ix3 p k q)) (expTile_apply x y w p k q)
  · refine (nbrSum_apply _ _ _ p q).trans (Finset.sum_congr rfl fun k _ => ?_)
    exact expTile_apply x y w p k q

/-- Entry `(p, q)` of the payload reads row `p` of the three node tiles only. -/
theorem pay_congr_row (x x' : Vec Ideal S624x128 .f32) (y y' f f' : Vec Ideal S624x32x128 .f32) (w : Vec Ideal S128x128 .f32)
    (p : Fin 624) (q : Fin 128) (hx : ∀ d, x (ix2 p d) = x' (ix2 p d)) (hy : ∀ k d, y (ix3 p k d) = y' (ix3 p k d))
    (hf : ∀ k d, f (ix3 p k d) = f' (ix3 p k d)) :
    k0_pay1 (F := Ideal) x y f w (ix2 p q) = k0_pay1 (F := Ideal) x' y' f' w (ix2 p q) := by
  rw [pay_apply, pay_apply]
  have hs : ∀ k, tileScore x y w p k q = tileScore x' y' w p k q := fun k => by
    unfold tileScore
    exact Finset.sum_congr rfl fun d _ => by rw [hx d, hy k d]
  simp only [hs, hf]

end Cert.KernelIdeal.PayloadAt

end
-- ==== Proof.KernelIdealRun.lean ====
/-
  The idealized kernel's run: the body's triple, the body obligation for the proof data that NAME what each
  staging buffer holds after the body, and the frame run whose post has every array at the contents the proof
  data compute.

  The node windows' last blocks overhang their arrays, so the body is handed each node tile with an unnamed
  filler `d` past the arrays' end, and is asked to hand the buffers back stated on the rows inside the array
  only. For the three inputs that is immediate (the body leaves them as they were). For the output it holds
  because entry `(p, q)` of the payload reads row `p` of each tile only: on a row inside the array the payload of
  the tiles with filler `d` is the payload of the tiles with the zero filler.
-/
import proofs.«157489_g1451698946386_cont_week2b_1105_6_alg».proof.Proof.KernelIdealData
import proofs.«157489_g1451698946386_cont_week2b_1105_6_alg».proof.Proof.KernelPayload
import proofs.«157489_g1451698946386_cont_week2b_1105_6_alg».proof.Proof.Gen.KernelIdeal.Frame
import proofs.«157489_g1451698946386_cont_week2b_1105_6_alg».proof.Proof.Gen.KernelIdeal.Skeleton
import Idealize.ShloMosaic.Lib.Pipeline.Kit
import Idealize.ShloMosaic.Lib.Pipeline.Value
import Idealize.ShloMosaic.Lib.Pipeline.FrameBody
import Idealize.ShloMosaic.Lib.Tactic

set_option maxRecDepth 16384

noncomputable section

namespace Cert.KernelIdeal.BodyValue

open Cert.KernelIdeal Cert.KernelIdeal.Gen Cert.KernelIdeal.PayloadAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Triple

variable {F : FTy → Type} [FloatOps F]

local notation "𝕄" => MT nD τ sig Unit (Elt F) ℕ (UR sig nD τ) ℕ

/-! ## The body's triple -/

/-- The zero offsets of a rank-2 access, however spelt. -/
theorem hz2 : (![0, 0] : Fin 2 → Nat) = fun _ => 0 := by
  funext a; fin_cases a <;> rfl

/-- The zero offsets of a rank-3 access. -/
theorem hz3 : (![0, 0, 0] : Fin 3 → Nat) = fun _ => 0 := by
  funext a; fin_cases a <;> rfl

/-- The whole-buffer rectangle of the output's staging buffer. -/
abbrev rOut : Rect S624x128 := Rect.unit (s := S624x128) ![0, 0] S624x128.size Gen.inb_S624x128_S624x128_0_0

/-- The one store covers the buffer. -/
theorem coverOut (p0 : Vec F S624x128 .f32) (y : S624x128.Idx) :
    ∃ pc ∈ ([⟨rOut, p0⟩] : List (View.Piece (Elt F) S624x128 .f32)), y ∈ pc.1.set :=
  ⟨_, List.mem_singleton_self _, View.mem_set_unit_zero hz2 Gen.inb_S624x128_S624x128_0_0 y⟩

set_option maxHeartbeats 1000000 in
/-- The body on whole staging memrefs, the four inputs' at contents `x0 … x3` and the output's at anything, runs
    to the continuation holding the inputs' as they were and the output's at the payload of those contents: every
    access is the whole buffer at offset zero, so each load reads the contents themselves and the one store
    leaves its payload. -/
theorem sound_kernel (c : Dev nD) (E : Set ℕ) (i : grid0.Coords)
    (arg1 : Memref sig .tc .vmem S624x128 .f32) (harg1 : arg1.IsWhole)
    (arg2 : Memref sig .tc .vmem S624x32x128 .f32) (harg2 : arg2.IsWhole)
    (arg3 : Memref sig .tc .vmem S624x32x128 .f32) (harg3 : arg3.IsWhole)
    (arg4 : Memref sig .tc .vmem S128x128 .f32) (harg4 : arg4.IsWhole)
    (arg5 : Memref sig .tc .vmem S624x128 .f32) (harg5 : arg5.IsWhole)
    (x0 : Vec F S624x128 .f32) (x1 x2 : Vec F S624x32x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverOut _)]
  rw [View.canon_unit_zero hz2]
  simp only [View.readAt_eq_ld]
  rw [View.ld_unit_zero hz2, View.ld_unit_zero hz3, View.ld_unit_zero hz3, View.ld_unit_zero hz2]

end Triple

local notation "𝕀" => MT nD τ sig Unit (Elt Ideal) ℕ (UR sig nD τ) ℕ

variable (m : (ℓ : Loc nD τ sig) → Buf (Elt Ideal) ℓ) (ρ : Dev nD → PrngReg)

/-! ## What the body finds -/

/-- A node window's buffer, just fetched: its block on the rows inside the array, `d` past the array's end. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
/-- The weight window's buffer holds its block at every point. -/
theorem before_3 (c : Dev nD) (t : Fin cfg0.N) (d) : (dats m 0 c).before 3 t d = iblk m c 3 t :=
  before0_3_of m (dats m 0 c) (A_eq m c 3) (after0_3 m c) t d

/-! ## The rows inside the array -/

/-- The four node windows cut their blocks alike on the row axis, and not at all on the others. -/
theorem rows_0 : ∀ t : Fin cfg0.N, win0_0.xsize (grid0.coords t) 0 = win0_4.xsize (grid0.coords t) 0 :=
  (by decide +kernel : ∀ t : Fin grid0.N, win0_0.xsize (grid0.coords t) 0 = win0_4.xsize (grid0.coords t) 0)
theorem rows_1 : ∀ t : Fin cfg0.N, win0_1.xsize (grid0.coords t) 0 = win0_4.xsize (grid0.coords t) 0 :=
  (by decide +kernel : ∀ t : Fin grid0.N, win0_1.xsize (grid0.coords t) 0 = win0_4.xsize (grid0.coords t) 0)
theorem rows_2 : ∀ t : Fin cfg0.N, win0_2.xsize (grid0.coords t) 0 = win0_4.xsize (grid0.coords t) 0 :=
  (by decide +kernel : ∀ t : Fin grid0.N, win0_2.xsize (grid0.coords t) 0 = win0_4.xsize (grid0.coords t) 0)
theorem lanes_0 : ∀ t : Fin cfg0.N, win0_0.xsize (grid0.coords t) 1 = 128 :=
  (by decide +kernel : ∀ t : Fin grid0.N, win0_0.xsize (grid0.coords t) 1 = 128)
theorem nbrs_1 : ∀ t : Fin cfg0.N, win0_1.xsize (grid0.coords t) 1 = 32 ∧ win0_1.xsize (grid0.coords t) 2 = 128 :=
  (by decide +kernel : ∀ t : Fin grid0.N, win0_1.xsize (grid0.coords t) 1 = 32 ∧ win0_1.xsize (grid0.coords t) 2 = 128)
theorem nbrs_2 : ∀ t : Fin cfg0.N, win0_2.xsize (grid0.coords t) 1 = 32 ∧ win0_2.xsize (grid0.coords t) 2 = 128 :=
  (by decide +kernel : ∀ t : Fin grid0.N, win0_2.xsize (grid0.coords t) 1 = 32 ∧ win0_2.xsize (grid0.coords t) 2 = 128)

/-- On an index the transfer moves, a filled block does not depend on the filler. -/
theorem fill_indep {G : Pipeline.Grid} (w : Window sig G) {α : Type} (i : G.Coords) (d d' : w.block.Idx → α)
    (g : (w.xblock i).Idx → α) (j : w.block.Idx) (hj : w.moved i j = true) : w.fill i d g j = w.fill i d' g j := by
  unfold Window.fill; rw [dif_pos hj, dif_pos hj]

theorem moved_0 (t : Fin cfg0.N) (p : Fin 624) (e : Fin 128) (hp : p.val < win0_4.xsize (grid0.coords t) 0) :
    win0_0.moved (grid0.coords t) (ix2 p e) = true :=
  (win0_0.moved_iff _ _).mpr fun a => by
    match a with
    | ⟨0, _⟩ => exact (rows_0 t).symm ▸ hp
    | ⟨1, _⟩ => exact (lanes_0 t).symm ▸ e.isLt
theorem moved_1 (t : Fin cfg0.N) (p : Fin 624) (k : Fin 32) (e : Fin 128) (hp : p.val < win0_4.xsize (grid0.coords t) 0) :
    win0_1.moved (grid0.coords t) (ix3 p k e) = true :=
  (win0_1.moved_iff _ _).mpr fun a => by
    match a with
    | ⟨0, _⟩ => exact (rows_1 t).symm ▸ hp
    | ⟨1, _⟩ => exact (nbrs_1 t).1.symm ▸ k.isLt
    | ⟨2, _⟩ => exact (nbrs_1 t).2.symm ▸ e.isLt
theorem moved_2 (t : Fin cfg0.N) (p : Fin 624) (k : Fin 32) (e : Fin 128) (hp : p.val < win0_4.xsize (grid0.coords t) 0) :
    win0_2.moved (grid0.coords t) (ix3 p k e) = true :=
  (win0_2.moved_iff _ _).mpr fun a => by
    match a with
    | ⟨0, _⟩ => exact (rows_2 t).symm ▸ hp
    | ⟨1, _⟩ => exact (nbrs_2 t).1.symm ▸ k.isLt
    | ⟨2, _⟩ => exact (nbrs_2 t).2.symm ▸ e.isLt

/-- ON THE ROWS INSIDE THE ARRAY the payload of the tiles does not depend on what fills them past the array's
    end: entry `(p, q)` reads row `p` of each tile, which the fetch moved. -/
theorem cut_out (c : Dev nD) (t : Fin cfg0.N) (d0 : S624x128.Idx → Elt Ideal .f32) (d1 d2 : S624x32x128.Idx → Elt Ideal .f32) :
    win0_4.cut (grid0.coords t) (k0_pay1 (F := Ideal) (win0_0.fill (grid0.coords t) d0 (iblk m c 0 t))
        (win0_1.fill (grid0.coords t) d1 (iblk m c 1 t)) (win0_2.fill (grid0.coords t) d2 (iblk m c 2 t)) (iblk m c 3 t))
      = win0_4.cut (grid0.coords t) (k0_pay1 (F := Ideal) (tile0 m c t) (tile1 m c t) (tile2 m c t) (wblk m c t)) := by
  funext j
  have hp : (j 0).val < win0_4.xsize (grid0.coords t) 0 := (j 0).isLt
  have hp624 : (j 0).val < 624 := lt_of_lt_of_le hp (win0_4.xsize_le (grid0.coords t) 0)
  have hq : (j 1).val < 128 := lt_of_lt_of_le (j 1).isLt (win0_4.xsize_le (grid0.coords t) 1)
  have hj : win0_4.xinj (grid0.coords t) j = ix2 (⟨(j 0).val, hp624⟩ : Fin 624) (⟨(j 1).val, hq⟩ : Fin 128) :=
    funext fun a => Fin.ext (by match a with | ⟨0, _⟩ => rfl | ⟨1, _⟩ => rfl)
  show k0_pay1 (F := Ideal) _ _ _ _ (win0_4.xinj (grid0.coords t) j) = k0_pay1 (F := Ideal) _ _ _ _ (win0_4.xinj (grid0.coords t) j)
  rw [hj]
  exact pay_congr_row _ _ _ _ _ _ _ _ _
    (fun e => fill_indep win0_0 _ _ _ _ _ (moved_0 t _ e hp))
    (fun k e => fill_indep win0_1 _ _ _ _ _ (moved_1 t _ k e hp))
    (fun k e => fill_indep win0_2 _ _ _ _ _ (moved_2 t _ k e hp))

/-! ## The body obligation -/

/-- At every point: the node windows' buffers arrive just fetched (their blocks on the rows inside the array, any
    filler past it), the weight's holding its block, the output's holding anything; the body leaves the inputs' as
    they were and the output's at the payload of what it read, which on the rows inside the array is the payload
    of the named tiles (`cut_out`). -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl,
    after0_0, after0_1, after0_2, after0_3, after0_4]
  change _ ⊢ wp frame (wpE (defs₀ (F := Ideal)) Variants.none c none) Set.univ (bodyAt0 t) _
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_kernel (F := Ideal) c Set.univ (grid0.coords t) _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (tile0 m c t)))
    rw [show win0_0.cut (grid0.coords t) (tile0 m c t) = iblk m c 0 t from win0_0.cut_fill _ _ _]
    try iexact H0
  isplitl [H1]
  · iexists d1
    change _ ⊢ owns (c : Thread nD τ) (st0_1 t) fullShare (win0_1.fill (grid0.coords t) d1 (win0_1.cut (grid0.coords t) (tile1 m c t)))
    rw [show win0_1.cut (grid0.coords t) (tile1 m c t) = iblk m c 1 t from win0_1.cut_fill _ _ _]
    try iexact H1
  isplitl [H2]
  · iexists d2
    change _ ⊢ owns (c : Thread nD τ) (st0_2 t) fullShare (win0_2.fill (grid0.coords t) d2 (win0_2.cut (grid0.coords t) (tile2 m c t)))
    rw [show win0_2.cut (grid0.coords t) (tile2 m c t) = iblk m c 2 t from win0_2.cut_fill _ _ _]
    try iexact H2
  isplitl [H3]; · iexact H3
  iexists (k0_pay1 (F := Ideal) (win0_0.fill (grid0.coords t) d0 (iblk m c 0 t)) (win0_1.fill (grid0.coords t) d1 (iblk m c 1 t))
    (win0_2.fill (grid0.coords t) d2 (iblk m c 2 t)) (iblk m c 3 t))
  change _ ⊢ owns (Val := Elt Ideal) (c : Thread nD τ) (st0_4 t) fullShare (win0_4.fill (grid0.coords t)
    (k0_pay1 (F := Ideal) (win0_0.fill (grid0.coords t) d0 (iblk m c 0 t)) (win0_1.fill (grid0.coords t) d1 (iblk m c 1 t))
      (win0_2.fill (grid0.coords t) d2 (iblk m c 2 t)) (iblk m c 3 t) : S624x128.Idx → Elt Ideal .f32)
    (win0_4.cut (grid0.coords t) (k0_pay1 (F := Ideal) (tile0 m c t) (tile1 m c t) (tile2 m c t) (wblk m c t) : S624x128.Idx → Elt Ideal .f32)))
  rw [win0_4.fill_congr_cut (grid0.coords t) (cut_out m c t d0 d1 d2)]
  try iexact H4

/-! ## The run -/

set_option backward.isDefEq.respectTransparency.types false in
/-- At the compiled mesh, from any memory with zero counters: every weakly fair execution of @main terminates, and
    every final state has each array of the pipeline at what the proof data compute (an input its contents when the
    region was entered, the output those overwritten block by block by the payloads' rows inside the array) and every
    other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.BodyValue

end
-- ==== Proof.KernelIdealValue.lean ====
/-
  The idealized kernel's output array after the run, as one function of the argument arrays.

  Grid point `t` writes back rows `624·t … 624·t + 623` of the result, cut at the array's end (the last point
  writes 16 rows). Entry `(p, q)` of what it writes is the body's quotient on row `p` of the three node tiles,
  which on the rows inside the arrays are rows `624·t + p` of `a1`, `a2`, `ft`; the weight block's entry `(d, q)`
  is `W[0,d]` whatever the lane `q`. So the entry is the specification's quotient at `(624·t + p, q)`, and the
  seventeen blocks cover the array: 10000 = 16·624 + 16.
-/
import proofs.«157489_g1451698946386_cont_week2b_1105_6_alg».proof.Proof.KernelIdealData
import proofs.«157489_g1451698946386_cont_week2b_1105_6_alg».proof.Proof.KernelPayload
import proofs.«157489_g1451698946386_cont_week2b_1105_6_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.OutValue

open Cert.KernelIdeal Cert.KernelIdeal.Gen Cert.KernelIdeal.BodyValue Cert.KernelIdeal.PayloadAt
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The index maps and cuts, decided over the seventeen points: every node window's block index is the
    point's number on the row axis and zero elsewhere, the node windows are cut on the row axis where the output
    is and nowhere else, and the output's rows end at `min (624·(t+1)) 10000`. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0
    ∧ win0_0.xsize (grid0.coords t) (0 : Fin 2) = win0_4.xsize (grid0.coords t) (0 : Fin 2)
    ∧ win0_0.xsize (grid0.coords t) (1 : Fin 2) = 128
    ∧ win0_1.xsize (grid0.coords t) (0 : Fin 3) = win0_4.xsize (grid0.coords t) (0 : Fin 2)
    ∧ win0_1.xsize (grid0.coords t) (1 : Fin 3) = 32
    ∧ win0_1.xsize (grid0.coords t) (2 : Fin 3) = 128
    ∧ win0_2.xsize (grid0.coords t) (0 : Fin 3) = win0_4.xsize (grid0.coords t) (0 : Fin 2)
    ∧ win0_2.xsize (grid0.coords t) (1 : Fin 3) = 32
    ∧ win0_2.xsize (grid0.coords t) (2 : Fin 3) = 128
    ∧ win0_4.xsize (grid0.coords t) (1 : Fin 2) = 128
    ∧ t.val * 624 + win0_4.xsize (grid0.coords t) (0 : Fin 2) = min ((t.val + 1) * 624) 10000 :=
  (by decide +kernel : ∀ t : Fin grid0.N, _)

/-! ## The weight block -/

/-- The weight array as the region finds it: `W` [1,128] recast to a column [128,1] and broadcast along the
    lanes, so its entry `(d, q)` is `W[0,d]`. -/
theorem V_weight (c : Dev nD) (d q : Fin 128) :
    (V m c main_call0_v1 : S128x128.Idx → EReal) (ix2 d q)
      = m ((c.tc : Thread nD τ).loc main_arg3) (ix2 (0 : Fin 1) d) := by
  have e : (V m c main_call0_v1 : S128x128.Idx → EReal)
      = broadcastInDim S128x128 ![0, 1] bcast_S128x1_S128x128_0_1
          (shapeCast S128x1 (m ((c.tc : Thread nD τ).loc main_arg3) : S1x128.Idx → EReal) shapeCasts_S1x128_S128x1) := by
    dsimp only [Gen.V, Gen.hostOps0]; after_results; rfl
  rw [e, broadcastInDim_apply ![0, 1] bcast_S128x1_S128x128_0_1 _ (ix2 d q) (ix2 d (0 : Fin 1)) (fun a => by
    match a with
    | ⟨0, _⟩ => rfl
    | ⟨1, _⟩ => rfl)]
  exact shapeCast_apply _ shapeCasts_S1x128_S128x1 (ix2 d (0 : Fin 1)) (ix2 (0 : Fin 1) d) (by
    rw [Shape.rowMajor_val_two, Shape.rowMajor_val_two]
    show 0 * 128 + d.val = d.val * 1 + 0
    omega)

/-- The weight block at any point is the whole weight array. -/
theorem wblk_apply (c : Dev nD) (t : Fin cfg0.N) (d q : Fin 128) :
    wblk m c t (ix2 d q) = m ((c.tc : Thread nD τ).loc main_arg3) (ix2 (0 : Fin 1) d) := by
  obtain ⟨-, -, -, -, -, -, -, -, i30, i31, -⟩ := idx_facts t
  unfold wblk iblk
  show V m c main_call0_v1 (((cfg0.win 3).blk t).view.emb (ix2 d q)) = _
  have e : ((cfg0.win 3).blk t).view.emb (ix2 d q) = ix2 d q := funext fun a => Fin.ext (by
    match a with
    | ⟨0, _⟩ => show win0_3.index t (0 : Fin 2) * 128 + 1 * d.val = d.val; omega
    | ⟨1, _⟩ => show win0_3.index t (1 : Fin 2) * 128 + 1 * q.val = q.val; omega)
  rw [e]
  exact V_weight m c d q

/-! ## The node tiles on the rows inside the arrays -/

/-- Row `p` of the tile of `a1` at point `t`, a row inside the array, is row `624·t + p` of `a1`. -/
theorem tile0_apply (c : Dev nD) (t : Fin cfg0.N) (p : Fin 624) (d : Fin 128)
    (hp : p.val < win0_4.xsize (grid0.coords t) (0 : Fin 2)) (n : Fin 10000) (hn : n.val = t.val * 624 + p.val) :
    tile0 m c t (ix2 p d) = m ((c.tc : Thread nD τ).loc main_arg0) (ix2 n d) := by
  obtain ⟨i00, i01, -, -, -, -, -, -, -, -, -, -, x00, x01, -⟩ := idx_facts t
  have hmv : win0_0.moved (grid0.coords t) (ix2 p d) = true := (win0_0.moved_iff _ _).mpr fun a => by
    match a with
    | ⟨0, _⟩ => show p.val < win0_0.xsize (grid0.coords t) (0 : Fin 2); rw [x00]; exact hp
    | ⟨1, _⟩ => show d.val < win0_0.xsize (grid0.coords t) (1 : Fin 2); rw [x01]; exact d.isLt
  unfold tile0 Window.fill
  rw [dif_pos hmv]
  unfold iblk
  show V m c main_arg0 (((cfg0.win 0).blk t).view.emb _) = _
  rw [V_main_arg0]
  refine congrArg _ (funext fun a => Fin.ext ?_)
  match a with
  | ⟨0, _⟩ => show win0_0.index t (0 : Fin 2) * 624 + 1 * p.val = n.val; omega
  | ⟨1, _⟩ => show win0_0.index t (1 : Fin 2) * 128 + 1 * d.val = d.val; omega

/-- Row `p` of the tile of `a2` at point `t`, a row inside the array, is row `624·t + p` of `a2`. -/
theorem tile1_apply (c : Dev nD) (t : Fin cfg0.N) (p : Fin 624) (k : Fin 32) (d : Fin 128)
    (hp : p.val < win0_4.xsize (grid0.coords t) (0 : Fin 2)) (n : Fin 10000) (hn : n.val = t.val * 624 + p.val) :
    tile1 m c t (ix3 p k d) = m ((c.tc : Thread nD τ).loc main_arg1) (ix3 n k d) := by
  obtain ⟨-, -, i10, i11, i12, -, -, -, -, -, -, -, -, -, x10, x11, x12, -⟩ := idx_facts t
  have hmv : win0_1.moved (grid0.coords t) (ix3 p k d) = true := (win0_1.moved_iff _ _).mpr fun a => by
    match a with
    | ⟨0, _⟩ => show p.val < win0_1.xsize (grid0.coords t) (0 : Fin 3); rw [x10]; exact hp
    | ⟨1, _⟩ => show k.val < win0_1.xsize (grid0.coords t) (1 : Fin 3); rw [x11]; exact k.isLt
    | ⟨2, _⟩ => show d.val < win0_1.xsize (grid0.coords t) (2 : Fin 3); rw [x12]; exact d.isLt
  unfold tile1 Window.fill
  rw [dif_pos hmv]
  unfold iblk
  show V m c main_arg1 (((cfg0.win 1).blk t).view.emb _) = _
  rw [V_main_arg1]
  refine congrArg _ (funext fun a => Fin.ext ?_)
  match a with
  | ⟨0, _⟩ => show win0_1.index t (0 : Fin 3) * 624 + 1 * p.val = n.val; omega
  | ⟨1, _⟩ => show win0_1.index t (1 : Fin 3) * 32 + 1 * k.val = k.val; omega
  | ⟨2, _⟩ => show win0_1.index t (2 : Fin 3) * 128 + 1 * d.val = d.val; omega

/-- Row `p` of the tile of `ft` at point `t`, a row inside the array, is row `624·t + p` of `ft`. -/
theorem tile2_apply (c : Dev nD) (t : Fin cfg0.N) (p : Fin 624) (k : Fin 32) (d : Fin 128)
    (hp : p.val < win0_4.xsize (grid0.coords t) (0 : Fin 2)) (n : Fin 10000) (hn : n.val = t.val * 624 + p.val) :
    tile2 m c t (ix3 p k d) = m ((c.tc : Thread nD τ).loc main_arg2) (ix3 n k d) := by
  obtain ⟨-, -, -, -, -, i20, i21, i22, -, -, -, -, -, -, -, -, -, x20, x21, x22, -⟩ := idx_facts t
  have hmv : win0_2.moved (grid0.coords t) (ix3 p k d) = true := (win0_2.moved_iff _ _).mpr fun a => by
    match a with
    | ⟨0, _⟩ => show p.val < win0_2.xsize (grid0.coords t) (0 : Fin 3); rw [x20]; exact hp
    | ⟨1, _⟩ => show k.val < win0_2.xsize (grid0.coords t) (1 : Fin 3); rw [x21]; exact k.isLt
    | ⟨2, _⟩ => show d.val < win0_2.xsize (grid0.coords t) (2 : Fin 3); rw [x22]; exact d.isLt
  unfold tile2 Window.fill
  rw [dif_pos hmv]
  unfold iblk
  show V m c main_arg2 (((cfg0.win 2).blk t).view.emb _) = _
  rw [V_main_arg2]
  refine congrArg _ (funext fun a => Fin.ext ?_)
  match a with
  | ⟨0, _⟩ => show win0_2.index t (0 : Fin 3) * 624 + 1 * p.val = n.val; omega
  | ⟨1, _⟩ => show win0_2.index t (1 : Fin 3) * 32 + 1 * k.val = k.val; omega
  | ⟨2, _⟩ => show win0_2.index t (2 : Fin 3) * 128 + 1 * d.val = d.val; omega

/-! ## What a point writes back, and the whole array -/

/-- WHAT POINT `t` WRITES BACK is its block, cut at the array's end, of the specification of the argument arrays:
    on a row inside the array the tiles' scores are the specification's scores of node `624·t + p`. -/
theorem flushed_eq (c : Dev nD) (t : Fin cfg0.N) :
    (dats m 0 c).flushed 4 t = ((cfg0.win 4).blk t).view.read (Elt Ideal)
      (Cert.AttnReduce.attn (m ((c.tc : Thread nD τ).loc main_arg0)) (m ((c.tc : Thread nD τ).loc main_arg1))
        (m ((c.tc : Thread nD τ).loc main_arg2)) (m ((c.tc : Thread nD τ).loc main_arg3))) := by
  show (cfg0.win 4).cut (grid0.coords t) ((dats m 0 c).after 4 t) = _
  rw [after0_4]
  obtain ⟨-, -, -, -, -, -, -, -, -, -, i40, i41, -, -, -, -, -, -, -, -, x41, hend⟩ := idx_facts t
  funext j
  have hj0 : (j 0).val < win0_4.xsize (grid0.coords t) (0 : Fin 2) := (j 0).isLt
  have hj1 : (j 1).val < 128 := by
    have h : (j 1).val < win0_4.xsize (grid0.coords t) (1 : Fin 2) := (j 1).isLt
    rw [x41] at h; exact h
  have hp : (j 0).val < 624 := Nat.lt_of_lt_of_le hj0 (win0_4.xsize_le _ 0)
  have hn : t.val * 624 + (j 0).val < 10000 := by omega
  have ex : win0_4.xinj (grid0.coords t) j = ix2 (⟨(j 0).val, hp⟩ : Fin 624) (⟨(j 1).val, hj1⟩ : Fin 128) :=
    funext fun a => by
      match a with
      | ⟨0, _⟩ => rfl
      | ⟨1, _⟩ => rfl
  have ei : ((cfg0.win 4).blk t).view.emb j
      = ix2 (⟨t.val * 624 + (j 0).val, hn⟩ : Fin 10000) (⟨(j 1).val, hj1⟩ : Fin 128) :=
    funext fun a => Fin.ext (by
      match a with
      | ⟨0, _⟩ => show win0_4.index t (0 : Fin 2) * 624 + 1 * (j 0).val = t.val * 624 + (j 0).val; omega
      | ⟨1, _⟩ => show win0_4.index t (1 : Fin 2) * 128 + 1 * (j 1).val = (j 1).val; omega)
  show k0_pay1 (F := Ideal) (tile0 m c t) (tile1 m c t) (tile2 m c t) (wblk m c t) (win0_4.xinj (grid0.coords t) j)
    = Cert.AttnReduce.attn _ _ _ _ (((cfg0.win 4).blk t).view.emb j)
  rw [ex, ei, pay_apply]
  unfold Cert.AttnReduce.attn
  have hs : ∀ k : Fin 32, tileScore (tile0 m c t) (tile1 m c t) (wblk m c t) ⟨(j 0).val, hp⟩ k ⟨(j 1).val, hj1⟩
      = Cert.AttnReduce.score (m ((c.tc : Thread nD τ).loc main_arg0)) (m ((c.tc : Thread nD τ).loc main_arg1))
          (m ((c.tc : Thread nD τ).loc main_arg3)) ⟨t.val * 624 + (j 0).val, hn⟩ k := fun k => by
    unfold tileScore Cert.AttnReduce.score
    refine Finset.sum_congr rfl fun d _ => ?_
    rw [tile0_apply m c t ⟨(j 0).val, hp⟩ d hj0 ⟨t.val * 624 + (j 0).val, hn⟩ rfl,
      tile1_apply m c t ⟨(j 0).val, hp⟩ k d hj0 ⟨t.val * 624 + (j 0).val, hn⟩ rfl, wblk_apply m c t d ⟨(j 1).val, hj1⟩]
  have hf : ∀ k : Fin 32, tile2 m c t (ix3 (⟨(j 0).val, hp⟩ : Fin 624) k (⟨(j 1).val, hj1⟩ : Fin 128))
      = m ((c.tc : Thread nD τ).loc main_arg2) (ix3 (⟨t.val * 624 + (j 0).val, hn⟩ : Fin 10000) k ⟨(j 1).val, hj1⟩) :=
    fun k => tile2_apply m c t ⟨(j 0).val, hp⟩ k ⟨(j 1).val, hj1⟩ hj0 ⟨t.val * 624 + (j 0).val, hn⟩ rfl
  simp only [hs, hf]

/-- An index of the array is in point `t`'s block iff each coordinate is in the block's range, cut at the array's end. -/
theorem mem_blk (t : Fin cfg0.N) (i : S10000x128.Idx) :
    i ∈ ((cfg0.win 4).blk t).view.set ↔ ∀ a : Fin 2, win0_4.index t a * S624x128.size a ≤ (i a).val
      ∧ (i a).val < win0_4.index t a * S624x128.size a + win0_4.xsize (grid0.coords t) a := by
  show i ∈ ((View.whole main_v0).slice (win0_4.rect t)).set ↔ _
  rw [View.set_slice_whole, Rect.mem_set_unit]
  exact Iff.rfl

/-- Row `r` of the array is in the block of point `r / 624`: 10000 = 16·624 + 16. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 624 < 17 := by omega
  refine ⟨⟨(i 0).val / 624, ht⟩, flush0_4 _, ?_⟩
  obtain ⟨-, -, -, -, -, -, -, -, -, -, i40, i41, -, -, -, -, -, -, -, -, x41, hend⟩ := idx_facts ⟨(i 0).val / 624, ht⟩
  rw [mem_blk]
  intro a
  match a with
  | ⟨0, _⟩ =>
    show win0_4.index ⟨(i 0).val / 624, ht⟩ (0 : Fin 2) * 624 ≤ (i 0).val
      ∧ (i 0).val < win0_4.index ⟨(i 0).val / 624, ht⟩ (0 : Fin 2) * 624 + win0_4.xsize (grid0.coords ⟨(i 0).val / 624, ht⟩) (0 : Fin 2)
    rw [i40]
    show (i 0).val / 624 * 624 ≤ (i 0).val ∧ (i 0).val < (i 0).val / 624 * 624 + win0_4.xsize (grid0.coords ⟨(i 0).val / 624, ht⟩) (0 : Fin 2)
    have hend' : (i 0).val / 624 * 624 + win0_4.xsize (grid0.coords ⟨(i 0).val / 624, ht⟩) (0 : Fin 2) = min (((i 0).val / 624 + 1) * 624) 10000 := hend
    omega
  | ⟨1, _⟩ =>
    show win0_4.index ⟨(i 0).val / 624, ht⟩ (1 : Fin 2) * 128 ≤ (i 1).val
      ∧ (i 1).val < win0_4.index ⟨(i 0).val / 624, ht⟩ (1 : Fin 2) * 128 + win0_4.xsize (grid0.coords ⟨(i 0).val / 624, ht⟩) (1 : Fin 2)
    rw [i41, x41]; omega

/-- THE OUTPUT ARRAY after the run is the specification of the argument arrays. -/
theorem final_out (c : Dev nD) :
    (dats m 0 c).arrAt 4 cfg0.N
      = Cert.AttnReduce.attn (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 4 _ (fun t _ => flushed_eq m c t) covered

end Cert.KernelIdeal.OutValue

end
-- ==== Proof.KernelIdealResult.lean ====
/-
  The idealized kernel's run with its result NAMED: every weakly fair execution terminates with the result
  array at the attention mean of the argument arrays, and the arguments unchanged. It is the frame run's post
  read at the output window (whose array the proof data compute, and whose blocks cover it) and at the inputs.
-/
import proofs.«157489_g1451698946386_cont_week2b_1105_6_alg».proof.Proof.KernelIdealRun
import proofs.«157489_g1451698946386_cont_week2b_1105_6_alg».proof.Proof.KernelIdealValue

noncomputable section

namespace Cert.KernelIdeal.OutValue

open Cert.KernelIdeal Cert.KernelIdeal.Gen Cert.KernelIdeal.BodyValue
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v0)
        = Cert.AttnReduce.attn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.OutValue

end
-- ==== Proof.lean ====
/-
  The certificate's five claims.

  Both idealized programs compute, for node `n` and feature `q`, the mean of the 32 neighbours' features
  `ft[n,k,q]` weighted by `exp (score n k)`, `score n k = Σ_d tanh (a1[n,d] + a2[n,k,d]) · W[0,d]`
  (`Cert.AttnReduce.attn`). The kernel sums the unnormalised weights and divides once; the reference normalises
  first, subtracting the row maximum inside the exponential, and sums afterwards: over finite inputs the two are the
  same real number. The kernel's blocks of 624 nodes do not divide the 10000 nodes, and the rows of its last block
  past the arrays' end hold values nothing names; each result row depends on its own input row only, so they reach
  no kept result. The word-level program's frame says nothing of the result array and forgets it.
-/
import proofs.«157489_g1451698946386_cont_week2b_1105_6_alg».proof.Defs
import proofs.«157489_g1451698946386_cont_week2b_1105_6_alg».proof.Proof.Gen.Kernel
import proofs.«157489_g1451698946386_cont_week2b_1105_6_alg».proof.Proof.Gen.Kernel.Skeleton
import proofs.«157489_g1451698946386_cont_week2b_1105_6_alg».proof.Proof.Gen.Kernel.Launch
import proofs.«157489_g1451698946386_cont_week2b_1105_6_alg».proof.Proof.Gen.Kernel.Points
import proofs.«157489_g1451698946386_cont_week2b_1105_6_alg».proof.Proof.Gen.Kernel.Frame
import proofs.«157489_g1451698946386_cont_week2b_1105_6_alg».proof.Proof.Gen.KernelIdeal
import proofs.«157489_g1451698946386_cont_week2b_1105_6_alg».proof.Proof.Gen.KernelIdeal.Skeleton
import proofs.«157489_g1451698946386_cont_week2b_1105_6_alg».proof.Proof.Gen.KernelIdeal.Launch
import proofs.«157489_g1451698946386_cont_week2b_1105_6_alg».proof.Proof.Gen.KernelIdeal.Points
import proofs.«157489_g1451698946386_cont_week2b_1105_6_alg».proof.Proof.Gen.KernelIdeal.Frame
import proofs.«157489_g1451698946386_cont_week2b_1105_6_alg».proof.Proof.Gen.ReferenceIdeal
import proofs.«157489_g1451698946386_cont_week2b_1105_6_alg».proof.Proof.Gen.ReferenceIdeal.Run
import proofs.«157489_g1451698946386_cont_week2b_1105_6_alg».proof.Proof.Gen.ReferenceIdeal.Read
import proofs.«157489_g1451698946386_cont_week2b_1105_6_alg».proof.Proof.Gen.Pre_finite_inputs
import proofs.«157489_g1451698946386_cont_week2b_1105_6_alg».proof.Proof.Spec
import proofs.«157489_g1451698946386_cont_week2b_1105_6_alg».proof.Proof.Finite
import proofs.«157489_g1451698946386_cont_week2b_1105_6_alg».proof.Proof.RefAttn
import proofs.«157489_g1451698946386_cont_week2b_1105_6_alg».proof.Proof.KernelFrame
import proofs.«157489_g1451698946386_cont_week2b_1105_6_alg».proof.Proof.KernelIdealRun
import proofs.«157489_g1451698946386_cont_week2b_1105_6_alg».proof.Proof.KernelIdealValue
import proofs.«157489_g1451698946386_cont_week2b_1105_6_alg».proof.Proof.KernelIdealResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.BodyFrame.frame m ρ

theorem frame_ki : Cert.frame_KernelIdeal := fun m ρ _ => Cert.KernelIdeal.BodyValue.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the attention mean of the argument arrays (`run_value`), the reference's at its
    composed term, which over finite inputs is the same function (`ref_eq_attn`); the arguments agree. -/
theorem algebraic : Cert.algebraic_KernelIdeal_ReferenceIdeal := by
  intro m ρ m' ρ' hpre hagree
  refine ⟨_, Cert.KernelIdeal.OutValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Pre_finite_inputs.Decode.isReal_of_pre _ _ _ _ (hpre c)
  rw [Cert.ReferenceIdeal.Read.val_main_v18_eq, (hagree c).1, (hagree c).2.1, (hagree c).2.2.1, (hagree c).2.2.2]
  exact Cert.ReferenceIdeal.RefValue.ref_eq_attn _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
